-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S8192x16384 : Shape := ⟨2, ![8192, 16384]⟩
abbrev S8192 : Shape := ⟨1, ![8192]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S8192x16384 : S_.BroadcastsInDim S8192x16384 (![] : Fin 0 → Fin S8192x16384.rank)
  reducesTo_S8192x16384_S_d0_1 : S8192x16384.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192x16384 1) : IVec S_ 1 :=
  let main_c_5 : IVec S_ 1 := constantI S_ 1 1#1
  let main_v17 : IVec S_ 1 := (fun x v => Host.reduce IntOp.andi x v reducesTo_S8192x16384_S_d0_1 h_S_) main_v16 main_c_5
  let main_v18 : IVec S_ 1 := andi main_v13 main_v17
  main_v18

def fn {F : FTy → Type} [FloatOps F] (main_arg0 : FVec F S1024x16384 .f32) (main_arg1 : FVec F S8192x16384 .f32) (main_arg2 : FVec F S8192 .f32) (main_arg3 : FVec F S8192x16384 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S8192x16384 .f32 := Host.absf main_arg1
  let main_cst_0 : FVec F S_ .f32 := constant S_ .f32 0x7F800000#32
  let main_v5 : FVec F S8192x16384 .f32 := broadcastInDim S8192x16384 ![] bcast_S_S8192x16384 main_cst_0
  let main_v6 : IVec S8192x16384 1 := cmpf .olt main_v4 main_v5
  let main_c_1 : IVec S_ 1 := constantI S_ 1 1#1
  let main_v7 : IVec S_ 1 := (fun x v => Host.reduce IntOp.andi x v reducesTo_S8192x16384_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x16384 .f32 := Host.absf main_arg3
  let main_cst_4 : FVec F S_ .f32 := constant S_ .f32 0x7F800000#32
  let main_v15 : FVec F S8192x16384 .f32 := broadcastInDim S8192x16384 ![] bcast_S_S8192x16384 main_cst_4
  let main_v16 : IVec S8192x16384 1 := cmpf .olt main_v14 main_v15
  fn_part1 (F := F) main_v13 main_v16
-- ==== Kernel.lean ====
abbrev S1024x16384 : Shape := ⟨2, ![1024, 16384]⟩
abbrev S8192x16384 : Shape := ⟨2, ![8192, 16384]⟩
abbrev S8192 : Shape := ⟨1, ![8192]⟩
abbrev S1x8192 : Shape := ⟨2, ![1, 8192]⟩
abbrev S1024x8192 : Shape := ⟨2, ![1024, 8192]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S1024x16384, .f32⟩
  | .hbm, ⟨1, _⟩ => ⟨S8192x16384, .f32⟩
  | .hbm, ⟨2, _⟩ => ⟨S8192, .f32⟩
  | .hbm, ⟨3, _⟩ => ⟨S8192x16384, .f32⟩
  | .hbm, ⟨4, _⟩ => ⟨S1x8192, .f32⟩
  | .hbm, ⟨5, _⟩ => ⟨S1024x8192, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S1x8192 : S8192.ShapeCasts S1x8192
  inb_S1024x2048_S1024x2048_0_0 : ∀ a, (![0, 0] : Fin 2 → Nat) a + S1024x2048.size a ≤ S1024x2048.size a
  h_S1024x2048 : 0 < S1024x2048.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x16384.size a
  hwx0_0 : ∀ i : grid0.Coords, EltTy.bits .f32 = 32 ∨ (Rect.block (s := S1024x16384) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x16384.size a
  hwx0_1 : ∀ i : grid0.Coords, EltTy.bits .f32 = 32 ∨ (Rect.block (s := S8192x16384) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x16384.size a
  hwx0_2 : ∀ i : grid0.Coords, EltTy.bits .f32 = 32 ∨ (Rect.block (s := S8192x16384) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x8192.size a
  hwx0_4 : ∀ i : grid0.Coords, EltTy.bits .f32 = 32 ∨ (Rect.block (s := S1024x8192) S1024x2048.size (cc0_transform_4 i) (hinb0_4 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S8192x16384 : Shape := ⟨2, ![8192, 16384]⟩
abbrev S8192 : Shape := ⟨1, ![8192]⟩
abbrev S1024x8192 : Shape := ⟨2, ![1024, 8192]⟩
abbrev S1x8192 : Shape := ⟨2, ![1, 8192]⟩

abbrev nBuf : Space → Nat
  | .hbm => 9
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S8192x16384, .f32⟩
  | .hbm, ⟨2, _⟩ => ⟨S8192, .f32⟩
  | .hbm, ⟨3, _⟩ => ⟨S8192x16384, .f32⟩
  | .hbm, ⟨4, _⟩ => ⟨S8192x16384, .f32⟩
  | .hbm, ⟨5, _⟩ => ⟨S1024x8192, .f32⟩
  | .hbm, ⟨6, _⟩ => ⟨S1x8192, .f32⟩
  | .hbm, ⟨7, _⟩ => ⟨S1024x8192, .f32⟩
  | .hbm, ⟨8, _⟩ => ⟨S1024x8192, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  dot_S1024x16384_S8192x16384_S1024x8192_1_1_0_0_n_n_wf : DotDims.WF S1024x16384 S8192x16384 S1024x8192 [1] [1] [0] [0] [] []

variable [Facts₀]

def dot_S1024x16384_S8192x16384_S1024x8192_1_1_0_0_n_n : DotDims S1024x16384 S8192x16384 S1024x8192 where
  lhsContracting := [1]
  rhsContracting := [1]
  lhsNonContracting := [0]
  rhsNonContracting := [0]
  lhsBatch := []
  rhsBatch := []
  wf := dot_S1024x16384_S8192x16384_S1024x8192_1_1_0_0_n_n_wf

class Facts : Prop extends Facts₀ where

variable [Facts]
-- ==== Proof.Payload.lean ====
/-
  What one grid point's body computes, index by index, on the extended reals.

  A point holds a [1024, 256] tile `x` of the input, [2048, 256] tiles `w` and `k` of the weights and of the mask,
  and the [1024, 2048] output tile `acc` as the point before left it. Changes of float format are the identity on the
  extended reals, so the body's three stored values are:

    * the reset value: 0 everywhere;
    * the accumulated tile: acc[r, o] + ∑ j < 256, x[r, j] · (w[o, j] · k[o, j]), the matrix product taken into a zero
      accumulator and contracting the SECOND axis of both operands;
    * the epilogue: acc[r, o] + b[0, o], the [1, 2048] bias tile repeated down the rows.
-/
import proofs.«135474_j21045339750608_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-! ## The tile product's operand indices: output (r, o) and contraction index j read x at (r, j) and the weights at (o, j) -/

theorem lhs_tile_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_tile_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs_tile_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_tile_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- The tile product into a zero accumulator, at (r, o): the sum over the tile's 256 contraction positions. -/
theorem tile_product_apply {φ₁ φ₂ : FTy} (a : FVec Ideal S1024x256 φ₁) (b : FVec Ideal S2048x256 φ₂) (y : S1024x2048.Idx) :
    FloatOps.matmul dot_S1024x256_S2048x256_S1024x2048_1_1_0_0_n_n none a b (constant (F := Ideal) S1024x2048 .f32 0x00000000#32) y
      = ∑ j : Fin 256, a (ix2 (y 0) j) * b (ix2 (y 1) j) := by
  rw [Ideal.matmul_constant_zero_apply, ← Equiv.sum_comp (ValueIdx.contrEquiv1 dot_S1024x256_S2048x256_S1024x2048_1_1_0_0_n_n 256 rfl rfl).symm]
  refine Finset.sum_congr rfl fun j _ => ?_
  have hj := ValueIdx.contrEquiv1_symm_val dot_S1024x256_S2048x256_S1024x2048_1_1_0_0_n_n 256 rfl rfl j
  have el : dot_S1024x256_S2048x256_S1024x2048_1_1_0_0_n_n.lhsIdx y ((ValueIdx.contrEquiv1 dot_S1024x256_S2048x256_S1024x2048_1_1_0_0_n_n 256 rfl rfl).symm j) = ix2 (y 0) j := funext fun a => Fin.ext (by
    match a with
    | ⟨0, _⟩ => exact lhs_tile_0 _ _
    | ⟨1, _⟩ => exact (lhs_tile_1 _ _).trans hj)
  have er : dot_S1024x256_S2048x256_S1024x2048_1_1_0_0_n_n.rhsIdx y ((ValueIdx.contrEquiv1 dot_S1024x256_S2048x256_S1024x2048_1_1_0_0_n_n 256 rfl rfl).symm j) = ix2 (y 1) j := funext fun a => Fin.ext (by
    match a with
    | ⟨0, _⟩ => exact rhs_tile_0 _ _
    | ⟨1, _⟩ => exact (rhs_tile_1 _ _).trans hj)
  rw [el, er]
  rfl

/-! ## The three stored values -/

/-- The reset value is zero at every index. -/
theorem reset_apply (y : S1024x2048.Idx) : k0_pay1 (F := Ideal) y = 0 := by
  unfold k0_pay1
  exact Ideal.ofBits_zero_f32

/-- The accumulated tile at (r, o): what was there plus the input tile's row r against the masked weight tile's row o. -/
theorem accumulate_apply (x : Vec Ideal S1024x256 .f32) (w k : Vec Ideal S2048x256 .f32) (acc : Vec Ideal S1024x2048 .f32)
    (y : S1024x2048.Idx) :
    k0_pay2 (F := Ideal) x w k acc y = acc y + ∑ j : Fin 256, x (ix2 (y 0) j) * (w (ix2 (y 1) j) * k (ix2 (y 1) j)) := by
  unfold k0_pay2
  rw [shapeCast_self]
  refine congrArg (acc y + ·) ?_
  exact tile_product_apply _ _ y

/-- The epilogue at (r, o): what was there plus the bias tile's entry o. -/
theorem epilogue_apply (acc : Vec Ideal S1024x2048 .f32) (b : Vec Ideal S1x2048 .f32) (y : S1024x2048.Idx) :
    k0_pay3 (F := Ideal) acc b y = acc y + b (ix2 (0 : Fin 1) (y 1)) := by
  unfold k0_pay3
  rw [shapeCast_self, shapeCast_self]
  refine congrArg (acc y + ·) ?_
  exact broadcastTo_apply b _ y (ix2 (0 : Fin 1) (y 1)) (fun a => by
    match a with
    | ⟨0, _⟩ => show 0 = if (1 : Nat) = 1 then 0 else _; rw [if_pos rfl]
    | ⟨1, _⟩ => show (y 1).val = if (2048 : Nat) = 1 then 0 else (y 1).val; rw [if_neg (by decide)])

end Cert.KernelIdeal.Tile

end
-- ==== Proof.Spec.lean ====
/-
  The masked linear layer as ONE function of its four argument arrays, and the one law the two programs differ by.

  With x : [1024, 16384], w and k (the 0/1 connectivity mask) : [8192, 16384] and b : [8192], the layer's output at
  (r, o) is

      (∑ i < 16384, x[r, i] · (w[o, i] · k[o, i])) + b[o]

  on the extended reals: each weight is masked first, the masked row is contracted with the input row, the bias is added
  last. The kernel reaches the same number tile by tile: it cuts the contraction axis into 64 tiles of 256 and adds the
  tiles' partial products one after the other. A sum over 16384 = 64 · 256 indices is the sum, over the 64 tiles, of
  each tile's sum over its 256 indices; that is a re-indexing of a finite sum along the bijection
  (s, j) ↦ 256 · s + j, valid in any commutative additive monoid, so it asks nothing of the summands: no entry needs
  to be finite.
-/
import Idealize.ShloMosaic.PureOps.Ideal
import Idealize.ShloMosaic.Lib.ValueIdx
import Mathlib.Logic.Equiv.Fin.Basic

noncomputable section

namespace MaskedLinear

open Idealize.ShloMosaic Idealize.ShloMosaic.ValueIdx
open scoped BigOperators

/-- The layer's output, index by index: the input row against the masked weight row, then the bias entry. -/
def layer (x : (⟨2, ![1024, 16384]⟩ : Shape).Idx → EReal) (w k : (⟨2, ![8192, 16384]⟩ : Shape).Idx → EReal)
    (b : (⟨1, ![8192]⟩ : Shape).Idx → EReal) : (⟨2, ![1024, 8192]⟩ : Shape).Idx → EReal :=
  fun i => (∑ q : Fin 16384, x (ix2 (i 0) q) * (w (ix2 (i 1) q) * k (ix2 (i 1) q))) + b (ix1 (i 1))

/-- Position `j` of tile `s` on the contraction axis. -/
abbrev tileIx (s : Fin 64) (j : Fin 256) : Fin 16384 :=
  ⟨256 * s.val + j.val, by have := s.isLt; have := j.isLt; omega⟩

/-- A sum over the 16384 contraction indices, tile by tile: 64 tiles of 256 consecutive indices each. -/
theorem sum_tiles {β : Type*} [AddCommMonoid β] (g : Fin 16384 → β) :
    ∑ q : Fin 16384, g q = ∑ s : Fin 64, ∑ j : Fin 256, g (tileIx s j) := by
  rw [← Fintype.sum_prod_type']
  refine (Fintype.sum_equiv (finProdFinEquiv (m := 64) (n := 256)) _ g (fun p => ?_)).symm
  refine congrArg g (Fin.ext ?_)
  show 256 * p.1.val + p.2.val = p.2.val + 256 * p.1.val
  omega

end MaskedLinear

end
-- ==== Proof.Fold.lean ====
/-
  The kernel's result array is the masked linear layer of its arguments.

  The grid is 4 × 64: output column tile n (2048 columns) and contraction tile s (256 positions), visited row-major, so
  point t has n = t / 64 and s = t % 64, and the 64 points of one column tile are consecutive. The output tile stays in
  place along such a run. At point t the input window holds x[:, 256·s ..], the weight and mask windows hold rows
  2048·n .. and columns 256·s .. of their arrays, and the bias window holds b[2048·n ..].

  Write T t (r, o) = ∑ j < 256, x[r, 256·s + j] · (w[2048·n + o, 256·s + j] · k[2048·n + o, 256·s + j]) for the product
  of point t's tiles. The first point of a run stores 0 + T; every later point adds its T to what the point before
  left; the last point then adds the bias entry. So the run ends holding (0 + ∑ s < 64, T (64·n + s)) + b[2048·n + o], and
  the 64 tile sums together are the contraction over all 16384 positions: the layer's value at (r, 2048·n + o).
-/
import proofs.«135474_j21045339750608_1_alg».proof.Proof.Gen.KernelIdeal.Value
import proofs.«135474_j21045339750608_1_alg».proof.Proof.Payload
import proofs.«135474_j21045339750608_1_alg».proof.Proof.Spec
import Idealize.ShloMosaic.Lib.ValueLayout

noncomputable section

namespace Cert.KernelIdeal.Tile

open Cert.KernelIdeal Cert.KernelIdeal.Gen Cert.KernelIdeal.Value Idealize.ShloMosaic Idealize.ShloMosaic.ValueIdx
open Idealize.ShloMosaic.TcCoe Idealize.SL.Sem
open scoped BigOperators

variable (m : (ℓ : Loc nD τ sig) → Buf (Elt Ideal) ℓ) (c : Dev nD)

/-! ## The four arrays as the region finds them, as plain functions into the extended reals -/

/-- The input, [1024, 16384]. -/
abbrev xs : S1024x16384.Idx → EReal := V m c main_arg0
/-- The weights, [8192, 16384]. -/
abbrev ws : S8192x16384.Idx → EReal := V m c main_arg1
/-- The 0/1 mask, [8192, 16384]. -/
abbrev ks : S8192x16384.Idx → EReal := V m c main_arg3
/-- The bias, [8192]. -/
abbrev bs : S8192.Idx → EReal := m ((c : Thread nD τ).loc main_arg2)

/-- No host operation before the region writes the input, the weights or the mask: they are the arguments. -/
theorem xs_eq : xs m c = m ((c : Thread nD τ).loc main_arg0) := V_main_arg0 m c
theorem ws_eq : ws m c = m ((c : Thread nD τ).loc main_arg1) := V_main_arg1 m c
theorem ks_eq : ks m c = m ((c : Thread nD τ).loc main_arg3) := V_main_arg3 m c

/-! ## Where each window's block lies -/

/-- The contraction position that place `j` of point `n`'s tile holds. -/
abbrev col (n : ℕ) (j : Fin 256) : Fin 16384 := ⟨256 * (n % 64) + j.val, by have := j.isLt; omega⟩
/-- The output column (a row of the weights) that place `o` of point `n`'s tile holds. -/
abbrev row (n : ℕ) (o : Fin 2048) : Fin 8192 := ⟨2048 * (n / 64 % 4) + o.val, by have := o.isLt; omega⟩

/-- The block indices of the four input windows at point `t`: the input follows the contraction tile, the weights and
    the mask follow both tiles, the bias follows the column tile. -/
theorem win_idx : ∀ t : Fin cfg0.N,
    win0_0.index t (0 : Fin 2) = 0 ∧ win0_0.index t (1 : Fin 2) = t.val % 64
  ∧ win0_1.index t (0 : Fin 2) = t.val / 64 ∧ win0_1.index t (1 : Fin 2) = t.val % 64
  ∧ win0_2.index t (0 : Fin 2) = t.val / 64 ∧ win0_2.index t (1 : Fin 2) = t.val % 64
  ∧ win0_3.index t (0 : Fin 2) = 0 ∧ win0_3.index t (1 : Fin 2) = t.val / 64 :=
  (by decide +kernel : ∀ t : Fin grid0.N, _)

theorem lt_points (t : Fin cfg0.N) : t.val < 256 := lt_of_lt_of_eq t.isLt (show cfg0.N = 256 from N_0)

/-- The input tile at point `t`: all 1024 rows, the tile's 256 contraction positions. -/
theorem xblk_apply (t : Fin cfg0.N) (p : Fin 1024) (j : Fin 256) :
    (iblk m c 0 t : Vec Ideal S1024x256 .f32) (ix2 p j) = xs m c (ix2 p (col t.val j)) := by
  obtain ⟨e0, e1, -⟩ := win_idx t
  show V m c main_arg0 (((cfg0.win 0).blk t).view.emb (ix2 p j)) = _
  refine congrArg _ (funext fun a => Fin.ext ?_)
  match a with
  | ⟨0, _⟩ => show win0_0.index t (0 : Fin 2) * 1024 + 1 * p.val = p.val; omega
  | ⟨1, _⟩ => show win0_0.index t (1 : Fin 2) * 256 + 1 * j.val = 256 * (t.val % 64) + j.val; omega

/-- The weight tile at point `t`: the column tile's 2048 weight rows, the tile's 256 contraction positions. -/
theorem wblk_apply (t : Fin cfg0.N) (o : Fin 2048) (j : Fin 256) :
    (iblk m c 1 t : Vec Ideal S2048x256 .f32) (ix2 o j) = ws m c (ix2 (row t.val o) (col t.val j)) := by
  obtain ⟨-, -, e0, e1, -⟩ := win_idx t
  have hN := lt_points t
  show V m c main_arg1 (((cfg0.win 1).blk t).view.emb (ix2 o j)) = _
  refine congrArg _ (funext fun a => Fin.ext ?_)
  match a with
  | ⟨0, _⟩ => show win0_1.index t (0 : Fin 2) * 2048 + 1 * o.val = 2048 * (t.val / 64 % 4) + o.val; omega
  | ⟨1, _⟩ => show win0_1.index t (1 : Fin 2) * 256 + 1 * j.val = 256 * (t.val % 64) + j.val; omega

/-- The mask tile at point `t` lies where the weight tile does. -/
theorem kblk_apply (t : Fin cfg0.N) (o : Fin 2048) (j : Fin 256) :
    (iblk m c 2 t : Vec Ideal S2048x256 .f32) (ix2 o j) = ks m c (ix2 (row t.val o) (col t.val j)) := by
  obtain ⟨-, -, -, -, e0, e1, -⟩ := win_idx t
  have hN := lt_points t
  show V m c main_arg3 (((cfg0.win 2).blk t).view.emb (ix2 o j)) = _
  refine congrArg _ (funext fun a => Fin.ext ?_)
  match a with
  | ⟨0, _⟩ => show win0_2.index t (0 : Fin 2) * 2048 + 1 * o.val = 2048 * (t.val / 64 % 4) + o.val; omega
  | ⟨1, _⟩ => show win0_2.index t (1 : Fin 2) * 256 + 1 * j.val = 256 * (t.val % 64) + j.val; omega

/-- The bias as the region finds it: the [8192] argument laid out as one row. -/
theorem bias_row : (V m c main_v0 : S1x8192.Idx → EReal)
    = shapeCast S1x8192 (m ((c : Thread nD τ).loc main_arg2)) shapeCasts_S8192_S1x8192 := by
  dsimp only [V, hostOps0]
  after_results
  rfl

/-- The bias tile at point `t`: the column tile's 2048 entries of the bias argument. -/
theorem bblk_apply (t : Fin cfg0.N) (o : Fin 2048) :
    (iblk m c 3 t : Vec Ideal S1x2048 .f32) (ix2 (0 : Fin 1) o) = bs m c (ix1 (row t.val o)) := by
  obtain ⟨-, -, -, -, -, -, e0, e1⟩ := win_idx t
  have hN := lt_points t
  show V m c main_v0 (((cfg0.win 3).blk t).view.emb (ix2 (0 : Fin 1) o)) = _
  rw [bias_row]
  refine (congrArg _ (funext fun a => Fin.ext ?_)).trans
    (shapeCast_a_1a_apply (m ((c : Thread nD τ).loc main_arg2)) shapeCasts_S8192_S1x8192 (0 : Fin 1) (row t.val o))
  match a with
  | ⟨0, _⟩ => show win0_3.index t (0 : Fin 2) * 1 + 1 * 0 = 0; omega
  | ⟨1, _⟩ => show win0_3.index t (1 : Fin 2) * 2048 + 1 * o.val = 2048 * (t.val / 64 % 4) + o.val; omega

/-! ## One point, then the run -/

/-- The product of point `n`'s tiles at (r, o): row r of the input against the masked weight row, over the tile's 256
    contraction positions. -/
def tileSum (n : ℕ) (y : S1024x2048.Idx) : EReal :=
  ∑ j : Fin 256, xs m c (ix2 (y 0) (col n j)) * (ws m c (ix2 (row n (y 1)) (col n j)) * ks m c (ix2 (row n (y 1)) (col n j)))

/-- A point's accumulated tile: what the buffer held plus the product of the point's tiles. -/
theorem point_apply (t : Fin cfg0.N) (acc : Vec Ideal S1024x2048 .f32) (y : S1024x2048.Idx) :
    k0_pay2 (F := Ideal) (iblk m c 0 t) (iblk m c 1 t) (iblk m c 2 t) acc y = acc y + tileSum m c t.val y := by
  refine (accumulate_apply (iblk m c 0 t) (iblk m c 1 t) (iblk m c 2 t) acc y).trans ?_
  refine congrArg (acc y + ·) (Finset.sum_congr rfl fun j _ => ?_)
  exact congrArg₂ (· * ·) (xblk_apply m c t (y 0) j) (congrArg₂ (· * ·) (wblk_apply m c t (y 1) j) (kblk_apply m c t (y 1) j))

/-- The run's first point: zero plus its tiles' product. -/
theorem reset_point (n : ℕ) (h : n < cfg0.N) (y : S1024x2048.Idx) :
    reset4 m c n h y = 0 + tileSum m c n y := by
  unfold reset4
  refine (point_apply m c ⟨n, h⟩ (k0_pay1 (F := Ideal)) y).trans ?_
  rw [reset_apply]

/-- A point that is neither the run's first nor its last adds its tiles' product. -/
theorem middle_point (n : ℕ) (h : n < cfg0.N) (acc : Vec Ideal S1024x2048 .f32) (y : S1024x2048.Idx)
    (h0 : ¬n % 64 = 0) (h1 : ¬n % 64 = 63) : step4 m c n h acc y = acc y + tileSum m c n y := by
  unfold step4
  rw [if_pos ⟨h0, h1⟩]
  exact point_apply m c ⟨n, h⟩ acc y

/-- The run's last point adds its tiles' product and then the bias entry of its output column. -/
theorem last_point (n : ℕ) (h : n < cfg0.N) (acc : Vec Ideal S1024x2048 .f32) (y : S1024x2048.Idx)
    (h1 : n % 64 = 63) :
    step4 m c n h acc y = (acc y + tileSum m c n y) + bs m c (ix1 (row n (y 1))) := by
  unfold step4
  rw [if_neg (fun hh => hh.2 h1), if_pos ⟨by omega, h1⟩]
  refine (epilogue_apply _ (iblk m c 3 ⟨n, h⟩) y).trans ?_
  exact congrArg₂ (· + ·) (point_apply m c ⟨n, h⟩ acc y) (bblk_apply m c ⟨n, h⟩ (y 1))

/-- What the run of column tile `r` leaves in the output tile: zero, the 64 tile products, the bias entry. -/
theorem run_apply (r : ℕ) (h : 64 * r + 63 < cfg0.N) (y : S1024x2048.Idx) :
    Pipeline.accAt (reset4 m c) (step4 m c) (64 * r) 63 h y
      = (0 + ∑ s ∈ Finset.range 64, tileSum m c (64 * r + s) y)
        + bs m c (ix1 (row (64 * r + 63) (y 1))) := by
  have hmid := Pipeline.accAt_add_apply (ι := S1024x2048.Idx) (β := EReal) (reset4 m c) (step4 m c) (fun _ => 0)
    (tileSum m c) (64 * r) 62 (fun h y => reset_point m c (64 * r) h y)
    (fun n hn acc y hlo hhi => middle_point m c n hn acc y (by omega) (by omega))
    62 le_rfl (Nat.lt_of_succ_lt h) y
  show Pipeline.accAt (reset4 m c) (step4 m c) (64 * r) (62 + 1) h y = _
  rw [Pipeline.accAt_succ, last_point m c (64 * r + (62 + 1)) h _ y (by omega), hmid]
  refine congrArg (· + bs m c (ix1 (row (64 * r + 63) (y 1)))) ?_
  exact (add_assoc _ _ _).trans
    (congrArg (0 + ·) (Finset.sum_range_succ (fun s => tileSum m c (64 * r + s) y) 63).symm)

/-! ## The array after the run -/

/-- The result array is the layer of the four argument arrays. -/
theorem result_eq : (G4 m c : S1024x8192.Idx → EReal)
    = MaskedLinear.layer (m ((c : Thread nD τ).loc main_arg0)) (m ((c : Thread nD τ).loc main_arg1))
        (m ((c : Thread nD τ).loc main_arg3)) (m ((c : Thread nD τ).loc main_arg2)) := by
  funext i
  have h0 : (i 0).val < 1024 := (i 0).isLt
  have h1 : (i 1).val < 8192 := (i 1).isLt
  have hr : run4Of i = (i 1).val / 2048 := by show 4 * ((i 0).val / 1024 - 0) + 1 * ((i 1).val / 2048 - 0) = _; omega
  have hN : 64 * run4Of i + 63 < cfg0.N := by rw [hr, show cfg0.N = 256 from N_0]; omega
  unfold G4
  rw [dif_pos hN, run_apply m c (run4Of i) hN (loc4Of i), zero_add, Finset.sum_range]
  unfold MaskedLinear.layer
  rw [MaskedLinear.sum_tiles]
  refine congrArg₂ (· + ·) (Finset.sum_congr rfl fun s _ => ?_) ?_
  · unfold tileSum
    refine Finset.sum_congr rfl fun j _ => ?_
    have hs := s.isLt
    have ec : col (64 * run4Of i + s.val) j = MaskedLinear.tileIx s j := Fin.ext (by
      show 256 * ((64 * run4Of i + s.val) % 64) + j.val = 256 * s.val + j.val; omega)
    have er : row (64 * run4Of i + s.val) (loc4Of i 1) = i 1 := Fin.ext (by
      show 2048 * ((64 * run4Of i + s.val) / 64 % 4) + (i 1).val % 2048 = (i 1).val; rw [hr]; omega)
    have ep : loc4Of i 0 = i 0 := Fin.ext (by show (i 0).val % 1024 = (i 0).val; omega)
    rw [ec, er, ep, xs_eq, ws_eq, ks_eq]
  · have er : row (64 * run4Of i + 63) (loc4Of i 1) = i 1 := Fin.ext (by
      show 2048 * ((64 * run4Of i + 63) / 64 % 4) + (i 1).val % 2048 = (i 1).val; rw [hr]; omega)
    rw [er]

end Cert.KernelIdeal.Tile

end
-- ==== Proof.Reference.lean ====
/-
  The reference computes the masked linear layer in one piece.

  Its five operations are: the weights times the mask, entry by entry; the input contracted with that product over the
  second axis of both (on the extended reals, the plain sum over all 16384 positions); the bias laid out as one row and
  repeated down the 1024 rows; the sum of the two. Read at (r, o) that is
  (∑ i < 16384, x[r, i] · (w[o, i] · k[o, i])) + b[o], the layer's value.
-/
import proofs.«135474_j21045339750608_1_alg».proof.Proof.Gen.ReferenceIdeal.Read
import proofs.«135474_j21045339750608_1_alg».proof.Proof.Spec

noncomputable section

namespace Cert.ReferenceIdeal.Whole

open Cert.ReferenceIdeal Cert.ReferenceIdeal.Gen Cert.ReferenceIdeal.Read Idealize.ShloMosaic Idealize.ShloMosaic.ValueIdx
open scoped BigOperators

/-- Output (r, o) and contraction position q read the input at (r, q) … -/
theorem lidx_eq (i : S1024x8192.Idx) (q : Fin 16384) : lidx_main_v1 i q = ix2 (i 0) q :=
  funext fun a => Fin.ext (by match a with | ⟨0, _⟩ => rfl | ⟨1, _⟩ => rfl)
/-- … and the masked weights at (o, q). -/
theorem ridx_eq (i : S1024x8192.Idx) (q : Fin 16384) : ridx_main_v1 i q = ix2 (i 1) q :=
  funext fun a => Fin.ext (by match a with | ⟨0, _⟩ => rfl | ⟨1, _⟩ => rfl)
/-- The repeated bias row at (r, o) is the bias entry o. -/
theorem bidx_eq (i : S1024x8192.Idx) : idx_main_v2 (idx_main_v3 i) = ix1 (i 1) :=
  funext fun a => Fin.ext (by match a with | ⟨0, _⟩ => rfl)

/-- The reference's result, as a function of its four arguments, is the layer. -/
theorem result_eq (x : S1024x16384.Idx → EReal) (w k : S8192x16384.Idx → EReal) (b : S8192.Idx → EReal) :
    val_main_v4 (F := Ideal) x w b k = MaskedLinear.layer x w k b := by
  funext i
  rw [val_main_v4_apply, val_main_v1_apply, val_main_v3_apply, val_main_v2_apply]
  unfold MaskedLinear.layer
  simp only [val_main_v0_apply, lidx_eq, ridx_eq, bidx_eq]
  rfl

end Cert.ReferenceIdeal.Whole

end
-- ==== Proof.lean ====
/-
  A masked linear layer: out = x · (w ∘ k)ᵀ + b, with x : [1024, 16384], weights w and a 0/1 mask k : [8192, 16384],
  bias b : [8192], out : [1024, 8192].

  The kernel walks a 4 × 64 grid: 4 tiles of 2048 output columns, and for each of them 64 tiles of 256 contraction
  positions, visited one after the other while the [1024, 2048] output tile stays in place. The first point of such a
  run clears the tile; every point adds the product of its input tile with its masked weight tile (the mask applied
  entry by entry before the product, the product's operands passed through a narrower float format, which is the
  identity on the extended reals); the last point adds the bias. The reference masks the whole weight array, contracts
  it with the input in one product and adds the bias.

  On the extended reals both are (∑ i < 16384, x[r, i] · (w[o, i] · k[o, i])) + b[o] at every (r, o)
  (`MaskedLinear.layer`): the reference read operation by operation (`Cert.ReferenceIdeal.Whole.result_eq`), the kernel
  because the 64 tile sums of a run, added up from zero, are the sum over all 16384 positions re-indexed along
  (s, j) ↦ 256 · s + j (`Cert.KernelIdeal.Tile.result_eq`). Only the regrouping of a finite sum is used, which holds in any
  commutative additive monoid, so the precondition that the inputs are finite is never opened.

  The idealized kernel is the kernel's own text read on the extended reals (no operation was rewritten), so there is
  nothing to preserve beyond that.
-/
import proofs.«135474_j21045339750608_1_alg».proof.Defs
import proofs.«135474_j21045339750608_1_alg».proof.Proof.Gen.Kernel.Frame
import proofs.«135474_j21045339750608_1_alg».proof.Proof.Gen.KernelIdeal.Value
import proofs.«135474_j21045339750608_1_alg».proof.Proof.Gen.Pre_finite_inputs
import proofs.«135474_j21045339750608_1_alg».proof.Proof.Gen.ReferenceIdeal.Run
import proofs.«135474_j21045339750608_1_alg».proof.Proof.Fold
import proofs.«135474_j21045339750608_1_alg».proof.Proof.Reference
import Idealize.ShloMosaic.Adequacy
import Idealize.ShloMosaic.Init

noncomputable section

namespace Cert.Proof

open Idealize.ShloMosaic Idealize.SL.Sem

/-- The idealized kernel runs and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The reference runs and leaves its arguments as they were: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments as their
    result: the kernel's array after its 4 runs of 64 points, the reference's after its five operations. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v4_eq, Cert.ReferenceIdeal.Whole.result_eq,
    (hagree c).1, (hagree c).2.1, (hagree c).2.2.1, (hagree c).2.2.2]
  exact (Cert.KernelIdeal.Tile.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
